-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S16x512 : Shape := ⟨2, ![16, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S16x512 : S_.BroadcastsInDim S16x512 (![] : Fin 0 → Fin S16x512.rank)
  reducesTo_S16x512_S_d0_1 : S16x512.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S65536x512 .f32) (main_arg1 : IVec S65536 32) (main_arg2 : FVec F S16x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S16x512 .f32 := Host.absf main_arg2
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg1 main_v9
  let main_c_3 : IVec S_ 1 := constantI S_ 1 1#1
  let main_v11 : IVec S_ 1 := (fun x v => Host.reduce IntOp.andi x v reducesTo_S65536_S_d0 h_S_) main_v10 main_c_3
  let main_v12 : IVec S_ 1 := andi main_v8 main_v11
  let main_c_4 : IVec S_ 32 := constantI S_ 32 16#32
  let main_v13 : IVec S65536 32 := broadcastInDim S65536 ![] bcast_S_S65536 main_c_4
  let main_v14 : IVec S65536 1 := cmpi .slt main_arg1 main_v13
  let main_c_5 : IVec S_ 1 := constantI S_ 1 1#1
  let main_v15 : IVec S_ 1 := (fun x v => Host.reduce IntOp.andi x v reducesTo_S65536_S_d0 h_S_) main_v14 main_c_5
  fn_part1 (F := F) main_v12 main_v15
-- ==== Kernel.lean ====
abbrev S65536x512 : Shape := ⟨2, ![65536, 512]⟩
abbrev S65536 : Shape := ⟨1, ![65536]⟩
abbrev S16x512 : Shape := ⟨2, ![16, 512]⟩
abbrev S65536x1 : Shape := ⟨2, ![65536, 1]⟩
abbrev S1x1 : Shape := ⟨2, ![1, 1]⟩
abbrev S4096x1 : Shape := ⟨2, ![4096, 1]⟩
abbrev S4096x512 : Shape := ⟨2, ![4096, 512]⟩
abbrev S4096x16 : Shape := ⟨2, ![4096, 16]⟩
abbrev S1x4096x512 : Shape := ⟨3, ![1, 4096, 512]⟩
abbrev S1 : Shape := ⟨1, ![1]⟩
abbrev S1x1x1 : Shape := ⟨3, ![1, 1, 1]⟩
abbrev S_ : Shape := ⟨0, ![]⟩
abbrev S16 : Shape := ⟨1, ![16]⟩
abbrev S512x16 : Shape := ⟨2, ![512, 16]⟩
abbrev S16x16 : Shape := ⟨2, ![16, 16]⟩
abbrev S16x1 : Shape := ⟨2, ![16, 1]⟩
abbrev S1x16 : Shape := ⟨2, ![1, 16]⟩

abbrev nBuf : Space → Nat
  | .hbm => 50
  | .vmem => 7
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S16x512, .f32⟩
  | .hbm, ⟨3, _⟩ => ⟨S65536x1, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x512, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S512x16, .f32⟩
  | .hbm, ⟨15, _⟩ => ⟨S16x16, .f32⟩
  | .hbm, ⟨16, _⟩ => ⟨S16x1, .f32⟩
  | .hbm, ⟨17, _⟩ => ⟨S1x16, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S_, .f32⟩
  | .hbm, ⟨22, _⟩ => ⟨S16x16, .f32⟩
  | .hbm, ⟨23, _⟩ => ⟨S16x16, .f32⟩
  | .hbm, ⟨24, _⟩ => ⟨S16x16, .f32⟩
  | .hbm, ⟨25, _⟩ => ⟨S_, .i1⟩
  | .hbm, ⟨26, _⟩ => ⟨S16x16, .i1⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i32⟩
  | .hbm, ⟨31, _⟩ => ⟨S16x16, .i32⟩
  | .hbm, ⟨32, _⟩ => ⟨S16x16, .i1⟩
  | .hbm, ⟨33, _⟩ => ⟨S_, .i1⟩
  | .hbm, ⟨34, _⟩ => ⟨S16x16, .i1⟩
  | .hbm, ⟨35, _⟩ => ⟨S16x16, .i1⟩
  | .hbm, ⟨36, _⟩ => ⟨S_, .f32⟩
  | .hbm, ⟨37, _⟩ => ⟨S16x16, .f32⟩
  | .hbm, ⟨38, _⟩ => ⟨S16x16, .f32⟩
  | .hbm, ⟨39, _⟩ => ⟨S_, .f32⟩
  | .hbm, ⟨40, _⟩ => ⟨S_, .f32⟩
  | .hbm, ⟨41, _⟩ => ⟨S16x16, .f32⟩
  | .hbm, ⟨42, _⟩ => ⟨S16x16, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S4096x1, .i32⟩
  | .local _ .vmem, ⟨1, _⟩ => ⟨S4096x1, .i32⟩
  | .local _ .vmem, ⟨2, _⟩ => ⟨S4096x512, .f32⟩
  | .local _ .vmem, ⟨3, _⟩ => ⟨S4096x512, .f32⟩
  | .local _ .vmem, ⟨4, _⟩ => ⟨S16x512, .f32⟩
  | .local _ .vmem, ⟨5, _⟩ => ⟨S1x1, .f32⟩
  | .local _ .vmem, ⟨6, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_cst_7 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v25 : BitVec 1 := Scalar.cmpi .eq arg0 c15_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S65536_S65536x1 : S65536.ShapeCasts S65536x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x16_d1_w32 : S4096x16.Iotas .tc 32 [1]
  broadcasts_S4096x1_S4096x16 : S4096x1.Broadcasts S4096x16
  natLt_1_32 : 1 < 32
  inb_S16x512_S16x512_0_0 : ∀ a, (![0, 0] : Fin 2 → Nat) a + S16x512.size a ≤ S16x512.size a
  h_S16x512 : 0 < S16x512.numel
  inb_S4096x512_S4096x512_0_0 : ∀ a, (![0, 0] : Fin 2 → Nat) a + S4096x512.size a ≤ S4096x512.size a
  h_S4096x512 : 0 < S4096x512.numel
  shapeCasts_S4096x512_S1x4096x512 : S4096x512.ShapeCasts S1x4096x512
  reduces_S1x4096x512_S1 : S1x4096x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  reducesTo_S16x512_S16_d1 : S16x512.ReducesTo [1] S16
  h_S_ : 0 < S_.numel
  transposes_S16x512_S512x16_1_0 : S16x512.Transposes [1, 0] S512x16
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  reducesTo_S16x16_S_d0_1 : S16x16.ReducesTo [0, 1] S_
  dot_S4096x16_S16x512_S4096x512_1_0_0_1_n_n_wf : DotDims.WF S4096x16 S16x512 S4096x512 [1] [0] [0] [1] [] []
  dot_S16x512_S512x16_S16x16_1_0_0_1_n_n_wf : DotDims.WF S16x512 S512x16 S16x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S65536x1.size a
  hwx0_0 : ∀ i : grid0.Coords, EltTy.bits .i32 = 32 ∨ (Rect.block (s := S65536x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S65536x512.size a
  hwx0_1 : ∀ i : grid0.Coords, EltTy.bits .f32 = 32 ∨ (Rect.block (s := S65536x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x512.size a
  hwx0_2 : ∀ i : grid0.Coords, EltTy.bits .f32 = 32 ∨ (Rect.block (s := S16x512) S16x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S4096x16_S16x512_S4096x512_1_0_0_1_n_n : DotDims S4096x16 S16x512 S4096x512 where
  lhsContracting := [1]
  rhsContracting := [0]
  lhsNonContracting := [0]
  rhsNonContracting := [1]
  lhsBatch := []
  rhsBatch := []
  wf := dot_S4096x16_S16x512_S4096x512_1_0_0_1_n_n_wf
def dot_S16x512_S512x16_S16x16_1_0_0_1_n_n : DotDims S16x512 S512x16 S16x16 where
  lhsContracting := [1]
  rhsContracting := [0]
  lhsNonContracting := [0]
  rhsNonContracting := [1]
  lhsBatch := []
  rhsBatch := []
  wf := dot_S16x512_S512x16_S16x16_1_0_0_1_n_n_wf

abbrev win0_0 : Pipeline.Window sig grid0 :=
  Pipeline.Window.ofSpec (Memref.whole main_v0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x512 : Shape := ⟨2, ![65536, 512]⟩
abbrev S65536 : Shape := ⟨1, ![65536]⟩
abbrev S16x512 : Shape := ⟨2, ![16, 512]⟩
abbrev S_ : Shape := ⟨0, ![]⟩
abbrev S65536x1 : Shape := ⟨2, ![65536, 1]⟩
abbrev S16 : Shape := ⟨1, ![16]⟩
abbrev S512x16 : Shape := ⟨2, ![512, 16]⟩
abbrev S16x16 : Shape := ⟨2, ![16, 16]⟩
abbrev S16x1 : Shape := ⟨2, ![16, 1]⟩
abbrev S1x16 : Shape := ⟨2, ![1, 16]⟩

abbrev nBuf : Space → Nat
  | .hbm => 60
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S16x512, .f32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16x512, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S512x16, .f32⟩
  | .hbm, ⟨25, _⟩ => ⟨S16x16, .f32⟩
  | .hbm, ⟨26, _⟩ => ⟨S16x1, .f32⟩
  | .hbm, ⟨27, _⟩ => ⟨S1x16, .f32⟩
  | .hbm, ⟨28, _⟩ => ⟨S16x16, .f32⟩
  | .hbm, ⟨29, _⟩ => ⟨S16x16, .f32⟩
  | .hbm, ⟨30, _⟩ => ⟨S16x16, .f32⟩
  | .hbm, ⟨31, _⟩ => ⟨S_, .f32⟩
  | .hbm, ⟨32, _⟩ => ⟨S16x16, .f32⟩
  | .hbm, ⟨33, _⟩ => ⟨S16x16, .f32⟩
  | .hbm, ⟨34, _⟩ => ⟨S16x16, .f32⟩
  | .hbm, ⟨35, _⟩ => ⟨S_, .i1⟩
  | .hbm, ⟨36, _⟩ => ⟨S16x16, .i1⟩
  | .hbm, ⟨37, _⟩ => ⟨S16x16, .i32⟩
  | .hbm, ⟨38, _⟩ => ⟨S_, .i32⟩
  | .hbm, ⟨39, _⟩ => ⟨S16x16, .i32⟩
  | .hbm, ⟨40, _⟩ => ⟨S16x16, .i32⟩
  | .hbm, ⟨41, _⟩ => ⟨S16x16, .i32⟩
  | .hbm, ⟨42, _⟩ => ⟨S16x16, .i1⟩
  | .hbm, ⟨43, _⟩ => ⟨S_, .i1⟩
  | .hbm, ⟨44, _⟩ => ⟨S16x16, .i1⟩
  | .hbm, ⟨45, _⟩ => ⟨S16x16, .i1⟩
  | .hbm, ⟨46, _⟩ => ⟨S_, .f32⟩
  | .hbm, ⟨47, _⟩ => ⟨S16x16, .f32⟩
  | .hbm, ⟨48, _⟩ => ⟨S16x16, .f32⟩
  | .hbm, ⟨49, _⟩ => ⟨S_, .f32⟩
  | .hbm, ⟨50, _⟩ => ⟨S_, .f32⟩
  | .hbm, ⟨51, _⟩ => ⟨S16x16, .f32⟩
  | .hbm, ⟨52, _⟩ => ⟨S16x16, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_0 : Ref sig .tc := ⟨.hbm, 43, rfl⟩
abbrev main_call0_v5 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_call1_v0 : Ref sig .tc := ⟨.hbm, 50, rfl⟩
abbrev main_call1_v1 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x512_S_d0_1 : S65536x512.ReducesTo [0, 1] S_
  h_S_ : 0 < S_.numel
  reducesTo_S16x512_S16_d1 : S16x512.ReducesTo [1] S16
  transposes_S16x512_S512x16_1_0 : S16x512.Transposes [1, 0] S512x16
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S_S16x16 : S_.BroadcastsInDim S16x16 (![] : Fin 0 → Fin S16x16.rank)
  reducesTo_S16x16_S_d0_1 : S16x16.ReducesTo [0, 1] S_
  gather_S16x512_S65536x1_S65536x512_1_0_n_n_0_1_1512_wf : GatherDims.WF S16x512 S65536x1 S65536x512 [1] [0] [] [0] [] 1 ![1, 512]
  dot_S16x512_S512x16_S16x16_1_0_0_1_n_n_wf : DotDims.WF S16x512 S512x16 S16x16 [1] [0] [0] [1] [] []

variable [Facts₀]

def gather_S16x512_S65536x1_S65536x512_1_0_n_n_0_1_1512 : GatherDims S16x512 S65536x1 S65536x512 where
  offsetDims := [1]
  collapsedSliceDims := [0]
  operandBatchingDims := []
  startIndicesBatchingDims := []
  startIndexMap := [0]
  indexVectorDim := 1
  sliceSizes := ![1, 512]
  wf := gather_S16x512_S65536x1_S65536x512_1_0_n_n_0_1_1512_wf
def dot_S16x512_S512x16_S16x16_1_0_0_1_n_n : DotDims S16x512 S512x16 S16x16 where
  lhsContracting := [1]
  rhsContracting := [0]
  lhsNonContracting := [0]
  rhsNonContracting := [1]
  lhsBatch := []
  rhsBatch := []
  wf := dot_S16x512_S512x16_S16x16_1_0_0_1_n_n_wf

class Facts : Prop extends Facts₀ where

variable [Facts]
-- ==== Proof.Pieces.lean ====
/-
  What each control case of the body leaves in the one-cell accumulator and in the output cell, as values.

  The body has three cases over the 16 grid points. At the first point it stores 0 into the accumulator, reads it
  back, and stores the read value plus the block's total. At the points between it stores the accumulator's value
  from the point before plus the block's total. At the last point it does the same and then copies the accumulator
  into the output cell. Each store covers its one-cell buffer whole, so what a buffer holds afterwards is the last
  store's value: the update over the reset at the first point, the update over the carried value afterwards, and, for
  the output cell, the accumulator's value read back after the update.
-/
import proofs.«424036_j30167850287416_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

/-- Every buffer here is read and written from its corner. -/
theorem hz : (![0, 0] : Fin 2 → Nat) = fun _ => 0 := funext fun a => by fin_cases a <;> rfl

/-- First point: the accumulator ends at the update over the reset's 0. -/
theorem scratch_A (c : Dev nD) (i : grid0.Coords) (arg1 : Memref sig .tc .vmem S4096x1 .i32) (harg1 : arg1.IsWhole)
    (arg2 : Memref sig .tc .vmem S4096x512 .f32) (harg2 : arg2.IsWhole) (arg3 : Memref sig .tc .vmem S16x512 .f32)
    (harg3 : arg3.IsWhole) (arg4 : Memref sig .tc .vmem S1x1 .f32) (harg4 : arg4.IsWhole)
    (arg5 : Memref sig .tc .vmem S1x1 .f32) (harg5 : arg5.IsWhole) (hc0 : cond0_0 i) (hc1 : ¬cond0_1 i)
    (x0 : Vec F S4096x1 .i32) (x1 : Vec F S4096x512 .f32) (x2 : Vec F S16x512 .f32) :
    sout0_A_0 c i arg1 harg1 arg2 harg2 arg3 harg3 arg4 harg4 arg5 harg5 hc0 hc1 x0 x1 x2 = k0_pay2 x0 x2 x1 k0_pay1 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread,
    View.ld_unit_zero (S := S4096x1) hz, View.ld_unit_zero (S := S4096x512) hz, View.ld_unit_zero (S := S16x512) hz,
    View.ld_unit_zero (S := S1x1) hz]

/-- A point between: the accumulator ends at the update over what the point before left. -/
theorem scratch_B (c : Dev nD) (i : grid0.Coords) (arg1 : Memref sig .tc .vmem S4096x1 .i32) (harg1 : arg1.IsWhole)
    (arg2 : Memref sig .tc .vmem S4096x512 .f32) (harg2 : arg2.IsWhole) (arg3 : Memref sig .tc .vmem S16x512 .f32)
    (harg3 : arg3.IsWhole) (arg4 : Memref sig .tc .vmem S1x1 .f32) (harg4 : arg4.IsWhole)
    (arg5 : Memref sig .tc .vmem S1x1 .f32) (harg5 : arg5.IsWhole) (hc0 : ¬cond0_0 i) (hc1 : ¬cond0_1 i)
    (x0 : Vec F S4096x1 .i32) (x1 : Vec F S4096x512 .f32) (x2 : Vec F S16x512 .f32) (xs0 : Vec F S1x1 .f32) :
    sout0_B_0 c i arg1 harg1 arg2 harg2 arg3 harg3 arg4 harg4 arg5 harg5 hc0 hc1 x0 x1 x2 xs0 = k0_pay2 x0 x2 x1 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg1.read_unread, harg2.read_unread, harg3.read_unread, harg5.read_unread,
    View.ld_unit_zero (S := S4096x1) hz, View.ld_unit_zero (S := S4096x512) hz, View.ld_unit_zero (S := S16x512) hz,
    View.ld_unit_zero (S := S1x1) hz]

/-- Last point: the accumulator likewise. -/
theorem scratch_C (c : Dev nD) (i : grid0.Coords) (arg1 : Memref sig .tc .vmem S4096x1 .i32) (harg1 : arg1.IsWhole)
    (arg2 : Memref sig .tc .vmem S4096x512 .f32) (harg2 : arg2.IsWhole) (arg3 : Memref sig .tc .vmem S16x512 .f32)
    (harg3 : arg3.IsWhole) (arg4 : Memref sig .tc .vmem S1x1 .f32) (harg4 : arg4.IsWhole)
    (arg5 : Memref sig .tc .vmem S1x1 .f32) (harg5 : arg5.IsWhole) (hc0 : ¬cond0_0 i) (hc1 : cond0_1 i)
    (x0 : Vec F S4096x1 .i32) (x1 : Vec F S4096x512 .f32) (x2 : Vec F S16x512 .f32) (xs0 : Vec F S1x1 .f32) :
    sout0_C_0 c i arg1 harg1 arg2 harg2 arg3 harg3 arg4 harg4 arg5 harg5 hc0 hc1 x0 x1 x2 xs0 = k0_pay2 x0 x2 x1 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S4096x1) hz, View.ld_unit_zero (S := S4096x512) hz, View.ld_unit_zero (S := S16x512) hz,
    View.ld_unit_zero (S := S1x1) hz]

/-- Last point: the output cell ends at the accumulator's value after the update. -/
theorem out_C (c : Dev nD) (i : grid0.Coords) (arg1 : Memref sig .tc .vmem S4096x1 .i32) (harg1 : arg1.IsWhole)
    (arg2 : Memref sig .tc .vmem S4096x512 .f32) (harg2 : arg2.IsWhole) (arg3 : Memref sig .tc .vmem S16x512 .f32)
    (harg3 : arg3.IsWhole) (arg4 : Memref sig .tc .vmem S1x1 .f32) (harg4 : arg4.IsWhole)
    (arg5 : Memref sig .tc .vmem S1x1 .f32) (harg5 : arg5.IsWhole) (hc0 : ¬cond0_0 i) (hc1 : cond0_1 i)
    (x0 : Vec F S4096x1 .i32) (x1 : Vec F S4096x512 .f32) (x2 : Vec F S16x512 .f32) (xs0 : Vec F S1x1 .f32) :
    out0_C_3 c i arg1 harg1 arg2 harg2 arg3 harg3 arg4 harg4 arg5 harg5 hc0 hc1 x0 x1 x2 xs0 = k0_pay2 x0 x2 x1 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg5.read_unread,
    View.ld_unit_zero (S := S4096x1) hz, View.ld_unit_zero (S := S4096x512) hz, View.ld_unit_zero (S := S16x512) hz,
    View.ld_unit_zero (S := S1x1) hz]

end Cert.KernelIdeal.Pieces

end
-- ==== Proof.CenterSums.lean ====
/-
  The centre loss's sum of squares, as plain sums over the extended reals.

  Sample R of 65536 has a label word y R and a feature row feat (R, ·) of 512 entries; the table cen has one
  row of 512 entries per class, 16 classes. The quantity both programs compute is

      ∑ R, ∑ c, (feat (R, c) − cen (class (y R), c))²,

  where a label word below 16 names its own value as the class. One program adds the 65536 · 512 squares in one
  sum; the other cuts the samples into 16 consecutive blocks of 4096, adds each block's squares, and adds the 16
  block sums one after the other. Addition of extended reals is commutative and associative, so the two groupings
  agree (`sum_rows_blocks`).

  One program finds the centre row by an equality test of the label against each class number, read as the
  number 1 or 0, and a sum of the 16 products with the table's rows: for a label below 16 exactly one product has
  the factor 1 and the others the factor 0, and 0 · x = 0 for every extended real x, an infinite one too, so the
  sum is the named row (`onehot_select`).
-/
import Idealize.ShloMosaic.PureOps.Ideal
import Idealize.ShloMosaic.PureOps.Ideal.Laws
import Idealize.ShloMosaic.Lib.ValueIdx
import Idealize.ShloMosaic.Lib.StableHlo.Predicate

noncomputable section

namespace Cert.CenterLoss

open Idealize.ShloMosaic Idealize.ShloMosaic.ValueIdx

/-- The class a label word names: its value, for a word below 16. -/
def cls (w : BitVec 32) : Fin 16 := ⟨w.toNat % 16, Nat.mod_lt _ (by decide)⟩

theorem cls_val {w : BitVec 32} (h : w.toNat < 16) : (cls w).val = w.toNat := Nat.mod_eq_of_lt h

/-- The squared distance of two extended reals. -/
def sqd (x c : EReal) : EReal := (x - c) * (x - c)

/-- One block's sum: over its 4096 rows and the 512 features, the squared distance of the entry to the entry of
    the centre the row's label names. -/
def blockSum (yb : IVec (⟨2, ![4096, 1]⟩ : Shape) 32) (fb : FVec Ideal (⟨2, ![4096, 512]⟩ : Shape) .f32)
    (cen : FVec Ideal (⟨2, ![16, 512]⟩ : Shape) .f32) : EReal :=
  ∑ r : Fin 4096, ∑ c : Fin 512, sqd (fb (ix2 r c)) (cen (ix2 (cls (yb (ix2 r (0 : Fin 1)))) c))

/-- The whole sum: over the 65536 samples and the 512 features. -/
def totalSum (y : IVec (⟨1, ![65536]⟩ : Shape) 32) (feat : FVec Ideal (⟨2, ![65536, 512]⟩ : Shape) .f32)
    (cen : FVec Ideal (⟨2, ![16, 512]⟩ : Shape) .f32) : EReal :=
  ∑ R : Fin 65536, ∑ c : Fin 512, sqd (feat (ix2 R c)) (cen (ix2 (cls (y (ix1 R))) c))

/-! ## The equality test as a number -/

/-- A bit widened to a word and read as a signed integer is 1 or 0. -/
theorem bit_toInt (b : BitVec 1) : (b.setWidth 32).toInt = if b = 1#1 then 1 else 0 := by
  by_cases h : b = 1#1
  · subst h; rw [if_pos rfl]; decide
  · have h0 := eq_zero_of_ne_one h
    subst h0; rw [if_neg (by decide)]; decide

/-- The test of a label word against a class number, as an extended real: 1 when the word is that number, else 0. -/
def hit (w : BitVec 32) (k : Fin 16) : EReal :=
  (((((IntOp.cmpi .eq w (BitVec.ofNat 32 k.val)).setWidth 32).toInt : ℤ) : ℝ) : EReal)

theorem hit_self {w : BitVec 32} (hw : w.toNat < 16) : hit w (cls w) = 1 := by
  unfold hit
  have h1 : IntOp.cmpi .eq w (BitVec.ofNat 32 (cls w).val) = 1#1 := by
    rw [StableHlo.Predicate.cmpi_eq_iff, cls_val hw]
    apply BitVec.eq_of_toNat_eq
    rw [BitVec.toNat_ofNat]
    exact (Nat.mod_eq_of_lt w.isLt).symm
  rw [h1, bit_toInt, if_pos rfl]
  norm_num

theorem hit_other {w : BitVec 32} (hw : w.toNat < 16) {k : Fin 16} (hk : k ≠ cls w) : hit w k = 0 := by
  unfold hit
  have h0 : ¬ IntOp.cmpi .eq w (BitVec.ofNat 32 k.val) = 1#1 := by
    rw [StableHlo.Predicate.cmpi_eq_iff]
    intro h
    apply hk
    apply Fin.ext
    rw [cls_val hw, h, BitVec.toNat_ofNat]
    have := k.isLt
    omega
  rw [bit_toInt, if_neg h0]
  norm_num

/-- The 16 products of the test with a row of numbers add up to the number at the label's class. -/
theorem onehot_select {w : BitVec 32} (hw : w.toNat < 16) (g : Fin 16 → EReal) :
    ∑ k : Fin 16, hit w k * g k = g (cls w) := by
  rw [Finset.sum_eq_single (cls w)]
  · rw [hit_self hw, one_mul]
  · intro k _ hk
    rw [hit_other hw hk, zero_mul]
  · intro h; exact absurd (Finset.mem_univ _) h

/-! ## Sixteen blocks of 4096 rows are the 65536 rows -/

/-- Row r of block t. -/
def rowOf (t : Fin 16) (r : Fin 4096) : Fin 65536 := ⟨4096 * t.val + r.val, by have := t.isLt; have := r.isLt; omega⟩

/-- A sum over the 65536 rows is the sum over the 16 blocks of the sums over each block's 4096 rows. -/
theorem sum_rows_blocks {M : Type*} [AddCommMonoid M] (g : Fin 65536 → M) :
    ∑ R : Fin 65536, g R = ∑ t : Fin 16, ∑ r : Fin 4096, g (rowOf t r) := by
  rw [← Equiv.sum_comp (finProdFinEquiv (m := 16) (n := 4096)) g, Fintype.sum_prod_type]
  refine Finset.sum_congr rfl fun t _ => Finset.sum_congr rfl fun r _ => congrArg g (Fin.ext ?_)
  show r.val + 4096 * t.val = 4096 * t.val + r.val
  omega

end Cert.CenterLoss

end
-- ==== Proof.BlockValue.lean ====
/-
  One block's arithmetic, read at the extended reals.

  A block is 4096 label words (a column), 4096 feature rows of 512 entries, and the table of 16 centres. The block's
  arithmetic tests each label against the class numbers 0 … 15 along a second axis, reads the tests as the numbers
  1 and 0, multiplies that 4096 × 16 matrix by the 16 × 512 table, subtracts the product from the features,
  squares, and adds all 4096 · 512 squares (the rows and columns of a three-axis view with a leading axis of one
  place). For labels below 16, row r of the product is the centre the label of row r names (`centreRows_apply`:
  the one-hot sum of CenterSums), so the total is the block's sum of squared distances (`blockTotal_eq`).
-/
import proofs.«424036_j30167850287416_1_alg».proof.Proof.CenterSums
import Idealize.ShloMosaic.Lib.Pipeline.Value
import Idealize.ShloMosaic.Lib.ValueLayout
import Idealize.ShloMosaic.Lib.StackMember
import Idealize.ShloMosaic.Lib.KernelVsHost

noncomputable section

namespace Cert.CenterLoss

open Idealize.ShloMosaic Idealize.ShloMosaic.ValueIdx

/-- A column of 4096 label words. -/
abbrev SY : Shape := ⟨2, ![4096, 1]⟩
/-- The 4096 × 16 tests. -/
abbrev SH : Shape := ⟨2, ![4096, 16]⟩
/-- A block of features. -/
abbrev SF : Shape := ⟨2, ![4096, 512]⟩
/-- The table of centres. -/
abbrev SC : Shape := ⟨2, ![16, 512]⟩
/-- The block of features with a leading axis of one place. -/
abbrev SF3 : Shape := ⟨3, ![1, 4096, 512]⟩
/-- One number, as a vector of one place, of three axes of one place, and as a 1 × 1 matrix. -/
abbrev SU1 : Shape := ⟨1, ![1]⟩
abbrev SU3 : Shape := ⟨3, ![1, 1, 1]⟩
abbrev SU2 : Shape := ⟨2, ![1, 1]⟩

/-! ## Sums over three coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The tests, and the product with the table -/

/-- The matrix of tests, as the block's arithmetic spells it: the label column laid along a second axis of 16
    places, compared for equality with the position on that axis, the bit widened and read as a number. -/
def tests (y : IVec SY 32) (h1 : SY.ShapeCasts SY) (h2 : SY.Broadcasts SH) (h3 : SH.Iotas .tc 32 [1]) (h4 : 1 < 32) :
    FVec Ideal SH .f32 :=
  sitofp .f32 (extui 32 (cmpi .eq (broadcastTo SH (shapeCast SY y h1) h2) (iota .tc SH 32 [1] h3)) h4)

/-- Entry (r, k) of the tests is the test of row r's label against class k. -/
theorem tests_apply (y : IVec SY 32) (h1 : SY.ShapeCasts SY) (h2 : SY.Broadcasts SH) (h3 : SH.Iotas .tc 32 [1])
    (h4 : 1 < 32) (r : Fin 4096) (k : Fin 16) :
    tests y h1 h2 h3 h4 (ix2 r k) = hit (y (ix2 r (0 : Fin 1))) k := by
  unfold tests
  rw [shapeCast_self]
  show ((((IntOp.cmpi .eq (broadcastTo SH y h2 (ix2 r k)) (iota .tc SH 32 [1] h3 (ix2 r k))).setWidth 32).toInt : ℝ) : EReal) = _
  rw [broadcastTo_apply y h2 (ix2 r k) (ix2 r (0 : Fin 1)) (fun a => by
    match a with
    | ⟨0, _⟩ => show r.val = if (4096 : ℕ) = 1 then 0 else r.val; rw [if_neg (by decide)]
    | ⟨1, _⟩ => show 0 = if (1 : ℕ) = 1 then 0 else k.val; rw [if_pos rfl])]
  have hi : iota .tc SH 32 [1] h3 (ix2 r k) = BitVec.ofNat 32 k.val := by
    show BitVec.ofNat 32 (0 * 16 + k.val) = _
    rw [Nat.zero_mul, Nat.zero_add]
  rw [hi]
  rfl

/-- Row r of the product of the tests with the table is the centre row r's label names, for labels below 16. -/
theorem centreRows_apply (y : IVec SY 32) (cen : FVec Ideal SC .f32) (h1 : SY.ShapeCasts SY) (h2 : SY.Broadcasts SH)
    (h3 : SH.Iotas .tc 32 [1]) (h4 : 1 < 32) (d : DotDims SH SC SF) (hd : d = DotDims.plain 4096 16 512)
    (hy : ∀ r : Fin 4096, (y (ix2 r (0 : Fin 1))).toNat < 16) (r : Fin 4096) (c : Fin 512) :
    matmul d none (tests y h1 h2 h3 h4) cen (constant SF .f32 0x00000000#32) (ix2 r c)
      = cen (ix2 (cls (y (ix2 r (0 : Fin 1)))) c) := by
  subst hd
  rw [matmul_zero_eq_dotGeneral, StackMember.dotGeneral_plain_apply]
  rw [Finset.sum_congr rfl fun k _ => by rw [tests_apply]]
  exact onehot_select (hy r) (fun k => cen (ix2 k c))

/-! ## The block's total -/

/-- The block's total as its arithmetic spells it: the squares of the features less the product, viewed with a
    leading axis of one place, added over the other two axes into a vector of one place, that viewed as three axes of
    one place, and its one entry taken. -/
def blockTotal (y : IVec SY 32) (cen : FVec Ideal SC .f32) (feat : FVec Ideal SF .f32)
    (h1 : SY.ShapeCasts SY) (h2 : SY.Broadcasts SH) (h3 : SH.Iotas .tc 32 [1]) (h4 : 1 < 32) (d : DotDims SH SC SF)
    (h5 : SF.ShapeCasts SF3) (h6 : SF3.Reduces [1, 2] SU1) (hφ : FKind.Formats .f32)
    (hacc : (0x00000000#32 : BitVec 32) = FKind.add.neutral .f32 hφ) (h7 : SU1.ShapeCasts SU3)
    (h8 : ∀ a, (![0, 0, 0] : Fin 3 → Nat) a < SU3.size a) : EReal :=
  extractAt ![0, 0, 0]
    (shapeCast SU3
      (multiReduction .add [1, 2] SU1
        (shapeCast SF3
          (mulf (subf feat (matmul d none (tests y h1 h2 h3 h4) cen (constant SF .f32 0x00000000#32)))
            (subf feat (matmul d none (tests y h1 h2 h3 h4) cen (constant SF .f32 0x00000000#32)))) h5)
        0x00000000#32 h6 hφ hacc) h7) h8

/-- It is the block's sum of squared distances, for labels below 16. -/
theorem blockTotal_eq (y : IVec SY 32) (cen : FVec Ideal SC .f32) (feat : FVec Ideal SF .f32)
    (h1 : SY.ShapeCasts SY) (h2 : SY.Broadcasts SH) (h3 : SH.Iotas .tc 32 [1]) (h4 : 1 < 32) (d : DotDims SH SC SF)
    (hd : d = DotDims.plain 4096 16 512)
    (h5 : SF.ShapeCasts SF3) (h6 : SF3.Reduces [1, 2] SU1) (hφ : FKind.Formats .f32)
    (hacc : (0x00000000#32 : BitVec 32) = FKind.add.neutral .f32 hφ) (h7 : SU1.ShapeCasts SU3)
    (h8 : ∀ a, (![0, 0, 0] : Fin 3 → Nat) a < SU3.size a)
    (hy : ∀ r : Fin 4096, (y (ix2 r (0 : Fin 1))).toNat < 16) :
    blockTotal y cen feat h1 h2 h3 h4 d h5 h6 hφ hacc h7 h8 = blockSum y feat cen := by
  unfold blockTotal extractAt
  rw [shapeCast_apply _ h7 _ (ix1 (0 : Fin 1)) (by rw [Shape.rowMajor_val_one, Shape.rowMajor_val_three]; rfl)]
  rw [Ideal.multiReduction_add_total _ _ h6 (fun b => by match b with | ⟨0, _⟩ => rfl) hφ hacc]
  rw [sum_idx3, Fin.sum_univ_one]
  unfold blockSum
  refine Finset.sum_congr rfl fun r _ => Finset.sum_congr rfl fun c _ => ?_
  rw [shapeCast_ab_1ab_apply]
  show (feat (ix2 r c) - matmul d none (tests y h1 h2 h3 h4) cen (constant SF .f32 0x00000000#32) (ix2 r c))
      * (feat (ix2 r c) - matmul d none (tests y h1 h2 h3 h4) cen (constant SF .f32 0x00000000#32) (ix2 r c)) = _
  rw [centreRows_apply y cen h1 h2 h3 h4 d hd hy r c]
  rfl

end Cert.CenterLoss

end
-- ==== Proof.PayloadValue.lean ====
/-
  What the body's two stores write, at the extended reals.

  The first store (taken at the first grid point only) writes the number 0 into the one-cell accumulator. The
  second writes the accumulator's cell plus the block's total: the tests of the block's labels against the 16
  class numbers, read as numbers, times the table of centres, subtracted from the block's features, squared and
  added up. For labels below 16 that total is the block's sum of squared distances to the named centres
  (BlockValue's `blockTotal_eq`).
-/
import proofs.«424036_j30167850287416_1_alg».proof.Proof.Gen.KernelIdeal.Skeleton
import proofs.«424036_j30167850287416_1_alg».proof.Proof.BlockValue

noncomputable section

namespace Cert.KernelIdeal.PayValue

open Idealize.ShloMosaic Idealize.ShloMosaic.ValueIdx Cert.KernelIdeal Cert.KernelIdeal.Gen Cert.CenterLoss

/-- The product's dimension numbers are the plain ones: rows by the contracted axis, times the contracted axis by
    columns. -/
theorem dot_plain : dot_S4096x16_S16x512_S4096x512_1_0_0_1_n_n = DotDims.plain 4096 16 512 := rfl

/-- The reset writes 0. -/
theorem pay1_apply (i : S1x1.Idx) : k0_pay1 (F := Ideal) i = 0 := by
  unfold k0_pay1
  rw [shapeCast_self]
  exact Ideal.ofBits_zero_f32

/-- The update writes the accumulator's cell plus the block's sum of squared distances, for labels below 16. -/
theorem pay2_apply (y : Vec Ideal S4096x1 .i32) (cen : Vec Ideal S16x512 .f32) (feat : Vec Ideal S4096x512 .f32)
    (acc : Vec Ideal S1x1 .f32) (hy : ∀ r : Fin 4096, (y (ix2 r (0 : Fin 1))).toNat < 16) (i : S1x1.Idx) :
    k0_pay2 (F := Ideal) y cen feat acc i = acc i + blockSum y feat cen := by
  unfold k0_pay2
  rw [shapeCast_self]
  refine congrArg (acc i + ·) ?_
  rw [broadcast_apply]
  exact blockTotal_eq y cen feat shapeCasts_S4096x1_S4096x1 broadcasts_S4096x1_S4096x16 iota_S4096x16_d1_w32 natLt_1_32
    dot_S4096x16_S16x512_S4096x512_1_0_0_1_n_n dot_plain shapeCasts_S4096x512_S1x4096x512 reduces_S1x4096x512_S1
    (.inl rfl) rfl shapeCasts_S1_S1x1x1 inpos_S1x1x1_p0_0_0 hy

end Cert.KernelIdeal.PayValue

end
-- ==== Proof.Accum.lean ====
/-
  The region's result: the sum, over all 65536 samples, of the squared distances to the named centres.

  The grid has 16 points; point t reads rows 4096 · t … 4096 · t + 4095 of the label column and of the features, and
  the whole table of centres. The one-cell accumulator the body carries between points holds, after point n, the sum
  of the block sums of points 0 … n (`scratch_eq`, by induction on the point: the first point adds its block sum to
  the reset's 0, each later point to what the point before left). At the last point the body copies the accumulator
  into the output cell, the only write-back of the run, whose block is the whole 1 × 1 result array (`final`). The
  16 block sums regroup into the one sum over all samples (`total_eq`: addition of extended reals is commutative
  and associative). All this for labels that are class numbers, below 16.
-/
import proofs.«424036_j30167850287416_1_alg».proof.Proof.Pieces
import proofs.«424036_j30167850287416_1_alg».proof.Proof.PayloadValue
import Idealize.ShloMosaic.Lib.StableHlo.Run

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.CenterLoss

variable (m : (ℓ : Loc nD τ sig) → Buf (Elt Ideal) ℓ)

/-! ## The blocks and the arrays, by their literal types -/

/-- Grid point t's block of labels, of features, and the table of centres as the point sees it. -/
abbrev yblk (c : Dev nD) (t : Fin cfg0.N) : Vec Ideal S4096x1 .i32 := iblk m c 0 t
abbrev fblk (c : Dev nD) (t : Fin cfg0.N) : Vec Ideal S4096x512 .f32 := iblk m c 1 t
abbrev cblk (c : Dev nD) (t : Fin cfg0.N) : Vec Ideal S16x512 .f32 := iblk m c 2 t
/-- The arrays as the region finds them: the labels as a column, the features, the centres. -/
abbrev yarr (c : Dev nD) : Vec Ideal S65536x1 .i32 := V m c main_v0
abbrev farr (c : Dev nD) : Vec Ideal S65536x512 .f32 := V m c main_arg0
abbrev carr (c : Dev nD) : Vec Ideal S16x512 .f32 := V m c main_arg2

/-- A grid point as a block number below 16. -/
def blockNo (t : Fin cfg0.N) : Fin 16 := ⟨t.val, lt_of_lt_of_eq t.isLt (show cfg0.N = 16 from N_0)⟩

/-- The printed index maps, decided over the grid: the label and feature windows move one block down the rows per
    point, the table's window stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Row r of point t's label block is row 4096 · t + r of the label column. -/
theorem yblk_apply (c : Dev nD) (t : Fin cfg0.N) (r : Fin 4096) :
    yblk m c t (ix2 r (0 : Fin 1)) = yarr m c (ix2 (rowOf (blockNo t) r) (0 : Fin 1)) := by
  obtain ⟨e0, e1, -⟩ := idx_facts t
  show V m c main_v0 (((cfg0.win 0).blk t).view.emb (ix2 r (0 : Fin 1))) = V m c main_v0 (ix2 (rowOf (blockNo t) r) (0 : Fin 1))
  refine congrArg (V m c main_v0) (funext fun a => Fin.ext ?_)
  match a with
  | ⟨0, _⟩ => show win0_0.index t (0 : Fin 2) * 4096 + 1 * r.val = 4096 * t.val + r.val; omega
  | ⟨1, _⟩ => show win0_0.index t (1 : Fin 2) * 1 + 1 * 0 = 0; omega

/-- Entry (r, q) of point t's feature block is entry (4096 · t + r, q) of the features. -/
theorem fblk_apply (c : Dev nD) (t : Fin cfg0.N) (r : Fin 4096) (q : Fin 512) :
    fblk m c t (ix2 r q) = farr m c (ix2 (rowOf (blockNo t) r) q) := by
  obtain ⟨-, -, e0, e1, -⟩ := idx_facts t
  show V m c main_arg0 (((cfg0.win 1).blk t).view.emb (ix2 r q)) = V m c main_arg0 (ix2 (rowOf (blockNo t) r) q)
  refine congrArg (V m c main_arg0) (funext fun a => Fin.ext ?_)
  match a with
  | ⟨0, _⟩ => show win0_1.index t (0 : Fin 2) * 4096 + 1 * r.val = 4096 * t.val + r.val; omega
  | ⟨1, _⟩ => show win0_1.index t (1 : Fin 2) * 512 + 1 * q.val = q.val; omega

/-- Every point sees the whole table of centres. -/
theorem cblk_apply (c : Dev nD) (t : Fin cfg0.N) (k : Fin 16) (q : Fin 512) :
    cblk m c t (ix2 k q) = carr m c (ix2 k q) := by
  obtain ⟨-, -, -, -, e0, e1⟩ := idx_facts t
  show V m c main_arg2 (((cfg0.win 2).blk t).view.emb (ix2 k q)) = V m c main_arg2 (ix2 k q)
  refine congrArg (V m c main_arg2) (funext fun a => Fin.ext ?_)
  match a with
  | ⟨0, _⟩ => show win0_2.index t (0 : Fin 2) * 16 + 1 * k.val = k.val; omega
  | ⟨1, _⟩ => show win0_2.index t (1 : Fin 2) * 512 + 1 * q.val = q.val; omega

/-- The label column is the label vector reshaped: row R holds label R. -/
theorem yarr_apply (c : Dev nD) (R : Fin 65536) :
    yarr m c (ix2 R (0 : Fin 1)) = m ((c : Thread nD τ).loc main_arg1) (ix1 R) := by
  have e : (V m c main_v0 : S65536x1.Idx → BitVec 32)
      = shapeCast S65536x1 (m ((c : Thread nD τ).loc main_arg1)) shapeCasts_S65536_S65536x1 := by
    show StableHlo.after hostOps0 (fun b => m (c, b)) (Proc.devRef .tc main_v0) = _
    after_results
    rfl
  show (V m c main_v0 : S65536x1.Idx → BitVec 32) (ix2 R (0 : Fin 1)) = _
  rw [e]
  exact shapeCast_apply _ _ _ (ix1 R) (by
    rw [Shape.rowMajor_val_one, Shape.rowMajor_val_two]
    show R.val = R.val * 1 + 0
    omega)

/-! ## The running total -/

/-- Every label is a class number. -/
def Labels (c : Dev nD) : Prop := ∀ R : Fin 65536, (m ((c : Thread nD τ).loc main_arg1) (ix1 R)).toNat < 16

/-- So is every label of every block. -/
theorem yblk_lt (c : Dev nD) (hl : Labels m c) (t : Fin cfg0.N) (r : Fin 4096) :
    (yblk m c t (ix2 r (0 : Fin 1))).toNat < 16 := by
  rw [yblk_apply, yarr_apply]
  exact hl _

/-- Point t's block sum. -/
def part (c : Dev nD) (t : Fin cfg0.N) : EReal := blockSum (yblk m c t) (fblk m c t) (cblk m c t)

/-- The total after point n: the block sums of points 0 … n. -/
def running (c : Dev nD) (n : ℕ) (h : n < cfg0.N) : EReal :=
  ∑ s : Fin (n + 1), part m c ⟨s.val, lt_of_le_of_lt (Nat.le_of_lt_succ s.isLt) h⟩

theorem running_zero (c : Dev nD) (h : 0 < cfg0.N) : running m c 0 h = 0 + part m c ⟨0, h⟩ := by
  unfold running
  rw [Fin.sum_univ_one]
  exact (zero_add _).symm

theorem running_succ (c : Dev nD) (n : ℕ) (h : n + 1 < cfg0.N) :
    running m c (n + 1) h = running m c n (Nat.lt_of_succ_lt h) + part m c ⟨n + 1, h⟩ := by
  unfold running
  rw [Fin.sum_univ_castSucc]
  rfl

/-- After point n the accumulator holds the total of the blocks 0 … n: at the first point the update over the
    reset's 0, afterwards the update over what the point before left. By induction on the point. -/
theorem scratch_eq (c : Dev nD) (hl : Labels m c) :
    ∀ (n : ℕ) (h : n < cfg0.N), (outsAt0 m c n h).2 = fun _ => running m c n h
  | 0, h => by
    rw [outsAt0_A m c ⟨0, h⟩ rfl (by show ¬(0 % 16 = 15); decide)]
    dsimp only
    rw [Pieces.scratch_A]
    funext i
    rw [PayValue.pay2_apply _ _ _ _ (yblk_lt m c hl ⟨0, h⟩) i, PayValue.pay1_apply, running_zero]
    rfl
  | n + 1, h => by
    have hN : cfg0.N = 16 := N_0
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      rw [Pieces.scratch_C]
      funext i
      rw [PayValue.pay2_apply _ _ _ _ (yblk_lt m c hl ⟨n + 1, h⟩) i, running_succ]
      show (outsAt0 m c n _).2 i + _ = _
      rw [scratch_eq c hl n]
      rfl
    · rw [outsAt0_B m c ⟨n + 1, h⟩ h0 h1]
      dsimp only
      rw [Pieces.scratch_B]
      funext i
      rw [PayValue.pay2_apply _ _ _ _ (yblk_lt m c hl ⟨n + 1, h⟩) i, running_succ]
      show (outsAt0 m c n _).2 i + _ = _
      rw [scratch_eq c hl n]
      rfl

/-! ## The output cell, and the result array -/

theorem lastPt : (15 : ℕ) < cfg0.N := by rw [show cfg0.N = 16 from N_0]; decide

/-- The sum of all 16 block sums. -/
def total (c : Dev nD) : EReal := running m c 15 lastPt

/-- At the last point the output cell receives the accumulator after its update: the total. -/
theorem out_eq (c : Dev nD) (hl : Labels m c) : (outsAt0 m c 15 lastPt).1 = fun _ => total m c := by
  have h0 : ¬(⟨15, lastPt⟩ : Fin cfg0.N).val % 16 = 0 := by show ¬(15 % 16 = 0); decide
  have h1 : (⟨15, lastPt⟩ : Fin cfg0.N).val % 16 = 15 := rfl
  rw [outsAt0_C m c ⟨15, lastPt⟩ h0 h1]
  dsimp only
  rw [Pieces.out_C]
  funext i
  rw [PayValue.pay2_apply _ _ _ _ (yblk_lt m c hl ⟨15, lastPt⟩) i]
  show (outsAt0 m c 14 _).2 i + _ = running m c (14 + 1) lastPt
  rw [scratch_eq m c hl 14]
  exact (running_succ m c 14 lastPt).symm

/-- The region's 1 × 1 result array, at the total. -/
abbrev result (c : Dev nD) : Buf (Elt Ideal) ((c : Thread nD τ).loc main_v1) := fun _ => total m c

/-- The output window's block never moves. -/
theorem idx_facts3 : ∀ t : Fin cfg0.N, win0_3.index t (0 : Fin 2) = 0 ∧ win0_3.index t (1 : Fin 2) = 0 :=
  (by decide +kernel : ∀ t : Fin grid0.N, _)

/-- The one write-back, after the last point, writes the total. -/
theorem flushed_eq (c : Dev nD) (hl : Labels m c) (t : Fin cfg0.N) (hf : (cfg0.win 3).flush t = true) :
    (dats m 0 c).flushed 3 t = ((cfg0.win 3).blk t).view.read (Elt Ideal) (result m c) := by
  have hN : cfg0.N = 16 := N_0
  have h15 : t.val = 15 := by have := (flush0_3 t).mp hf; have := t.isLt; omega
  obtain rfl : t = ⟨15, lastPt⟩ := Fin.ext h15
  show (cfg0.win 3).cut (grid0.coords ⟨15, lastPt⟩) ((dats m 0 c).after 3 ⟨15, lastPt⟩) = _
  rw [after0_3, out_eq m c hl]
  rfl

/-- An index of the result array is in a point's block iff each coordinate is in the block's range on its axis. -/
theorem mem_blk3 (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v1).slice (win0_3.rect t)).set ↔ _
  rw [View.set_slice_whole, Rect.mem_set_unit]
  exact Iff.rfl

/-- So the result array ends holding the total: the last point's block is the whole array. -/
theorem final (c : Dev nD) (hl : Labels m c) : (dats m 0 c).arrAt 3 cfg0.N = result m c :=
  (dats m 0 c).arrAt_eq_of_cover 3 (result m c) (flushed_eq m c hl) fun i =>
    ⟨⟨15, lastPt⟩, (flush0_3 _).mpr rfl, by
      rw [mem_blk3]
      obtain ⟨e0, e1⟩ := idx_facts3 ⟨15, lastPt⟩
      intro a
      have h0 : (i 0 : Nat) < 1 := (i 0).isLt
      have h1 : (i 1 : Nat) < 1 := (i 1).isLt
      match a with
      | ⟨0, _⟩ => show win0_3.index ⟨15, lastPt⟩ (0 : Fin 2) * 1 ≤ (i 0).val ∧ (i 0).val < win0_3.index ⟨15, lastPt⟩ (0 : Fin 2) * 1 + 1; omega
      | ⟨1, _⟩ => show win0_3.index ⟨15, lastPt⟩ (1 : Fin 2) * 1 ≤ (i 1).val ∧ (i 1).val < win0_3.index ⟨15, lastPt⟩ (1 : Fin 2) * 1 + 1; omega⟩

/-! ## The total is the sum over all samples -/

/-- The 16 block sums, block t reading rows 4096 · t … 4096 · t + 4095 of the arrays, add up to the sum over all
    65536 samples of the squared distances to the named centres. -/
theorem total_eq (c : Dev nD) :
    total m c = totalSum (m ((c : Thread nD τ).loc main_arg1)) (m ((c : Thread nD τ).loc main_arg0))
      (m ((c : Thread nD τ).loc main_arg2)) := by
  unfold total running totalSum
  rw [sum_rows_blocks]
  refine Finset.sum_congr rfl fun s _ => ?_
  unfold part blockSum
  refine Finset.sum_congr rfl fun r _ => Finset.sum_congr rfl fun q _ => ?_
  rw [fblk_apply, yblk_apply, yarr_apply, cblk_apply]
  show sqd (V m c main_arg0 _) (V m c main_arg2 _) = _
  rw [V_main_arg0, V_main_arg2]
  rfl

end Cert.KernelIdeal.Accum

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.RefSum.lean ====
/-
  The reference's sum of squares, read at the extended reals.

  The reference wraps a negative label by adding 16, lays the labels as a column of start indices, gathers the centre
  rows those indices name, subtracts them from the features, squares, and adds every entry from 0. For a label
  that is a class number (below 16, so non-negative read signed) the wrap leaves it alone and the gather's clamp
  does nothing: sample R reads the centre row its label names. So the sum is the sum over all samples and features
  of the squared distance to the named centre.
-/
import proofs.«424036_j30167850287416_1_alg».proof.Proof.Gen.ReferenceIdeal.Read
import proofs.«424036_j30167850287416_1_alg».proof.Proof.CenterSums
import proofs.«424036_j30167850287416_1_alg».proof.Proof.LibIndexMaps
import Idealize.ShloMosaic.Lib.StableHlo.Predicate

noncomputable section

namespace Cert.ReferenceIdeal.RefSum

open Idealize.ShloMosaic Idealize.ShloMosaic.ValueIdx Cert.ReferenceIdeal Cert.ReferenceIdeal.Read Cert.CenterLoss

/-- The start index of sample R is its label, for a label below 16: the wrap of negative labels does not apply. -/
theorem start_eq (x1 : IVec S65536 32) (R : Fin 65536) (hR : (x1 (ix1 R)).toNat < 16) :
    (val_main_v5 (F := Ideal) x1 (ix2 R (0 : Fin 1))).toInt = ((x1 (ix1 R)).toNat : Int) := by
  have hi : idx_main_v5 (ix2 R (0 : Fin 1)) = ix1 R := funext fun a => by match a with | ⟨0, _⟩ => rfl
  have hpos : (x1 (ix1 R)).toInt = ((x1 (ix1 R)).toNat : Int) :=
    StableHlo.Predicate.toInt_eq_toNat_of_lt (by omega)
  rw [val_main_v5_apply, hi, val_main_v4_apply, val_main_v1_apply, val_main_v0_apply, val_main_c_apply]
  have hn : ¬ IntOp.cmpi .slt (x1 (ix1 R)) (0#32) = 1#1 := by
    rw [IntOp.cmpi_slt, hpos]
    have e0 : (0#32 : BitVec 32).toInt = 0 := by decide
    rw [e0]
    omega
  rw [eq_zero_of_ne_one hn, select_zero]
  exact hpos

/-- Row R of the gathered centres is the centre R's label names. -/
theorem gathered_apply (x1 : IVec S65536 32) (x2 : FVec Ideal S16x512 .f32) (R : Fin 65536) (q : Fin 512)
    (hR : (x1 (ix1 R)).toNat < 16) :
    val_main_v6 (F := Ideal) x1 x2 (ix2 R q) = x2 (ix2 (cls (x1 (ix1 R))) q) := by
  unfold val_main_v6
  rw [Cert.Gcn.IndexMaps.gather2_ix_apply gather_S16x512_S65536x1_S65536x512_1_0_n_n_0_1_1512 rfl rfl rfl rfl rfl x2 _ R q
    (x1 (ix1 R)).toNat hR (start_eq x1 R hR)]
  exact congrArg (fun k => x2 (ix2 k q)) (Fin.ext (cls_val hR).symm)

/-- The reference's sum is the sum over all samples of the squared distances to the named centres, for labels below 16. -/
theorem sumsq_eq (x0 : FVec Ideal S65536x512 .f32) (x1 : IVec S65536 32) (x2 : FVec Ideal S16x512 .f32)
    (hl : ∀ R : Fin 65536, (x1 (ix1 R)).toNat < 16) (i : S_.Idx) :
    val_main_v9 (F := Ideal) x0 x1 x2 i = totalSum x1 x0 x2 := by
  rw [val_main_v9_apply, val_main_cst_apply]
  rw [show (FloatOps.ofBits (F := Ideal) .f32 0x00000000#32 : EReal) = 0 from Ideal.ofBits_zero_f32, zero_add, sum_idx2]
  unfold totalSum
  refine Finset.sum_congr rfl fun R _ => Finset.sum_congr rfl fun q _ => ?_
  rw [val_main_v8_apply, val_main_v7_apply, gathered_apply x1 x2 R q (hl R)]
  rfl

end Cert.ReferenceIdeal.RefSum

end
-- ==== Proof.KernelRun.lean ====
/-
  The kernel program's run, read: its result is the reference's result term of the same arguments.

  After the region the program halves the region's one number, scales it by 2⁻¹⁶, and adds ten times a term that
  depends on the table of centres alone (the pairwise cosine term: products of rows over products of their norms plus
  a small constant, plus one, over the pairs above the diagonal). The reference ends with the same lines, literal for
  literal, applied to its own sum of squares. The region's number is the sum over all samples of the squared
  distances to the named centres (Accum's `final` and `total_eq`), and so is the reference's sum (RefSum's
  `sumsq_eq`); the table is the same array in both. So the two results are one term.
-/
import proofs.«424036_j30167850287416_1_alg».proof.Proof.Accum
import proofs.«424036_j30167850287416_1_alg».proof.Proof.RefSum
import Idealize.ShloMosaic.Lib.StableHlo.Run
import Idealize.ShloMosaic.Lib.Pipeline.FrameSuffix

noncomputable section

namespace Cert.KernelIdeal.KernelRun

open Idealize.ShloMosaic Idealize.ShloMosaic.TcCoe Idealize.SL.Sem Idealize.ShloMosaic.ValueIdx
open Idealize.ShloMosaic.Pipeline (Dat)
open Cert.KernelIdeal Cert.KernelIdeal.Gen Cert.CenterLoss Cert.KernelIdeal.Accum

variable (m : (ℓ : Loc nD τ sig) → Buf (Elt Ideal) ℓ) (ρ : Dev nD → PrngReg)

/-- The reference's result term, of this program's argument arrays. -/
abbrev refResult (c : Dev nD) : S_.Idx → EReal :=
  Cert.ReferenceIdeal.Read.val_main_v33 (F := Ideal) (m ((c : Thread nD τ).loc main_arg0))
    (m ((c : Thread nD τ).loc main_arg1)) (m ((c : Thread nD τ).loc main_arg2))

/-- After the region its result array holds the total, and the table of centres is as launched. -/
theorem region_out (c : Dev nD) (hl : Labels m c) :
    (Pipeline.withArrays (cfgs 0).spec c (V0 m c) (fun w => (dats m 0 c).arrAt w (cfgs 0).N) (Proc.tc.devRef main_v1)
      : S1x1.Idx → EReal) = result m c :=
  (Pipeline.withArrays_arr spec0 launch0.win.arr_inj c _ _ 3).trans (final m c hl)

theorem region_centres (c : Dev nD) :
    (Pipeline.withArrays (cfgs 0).spec c (V0 m c) (fun w => (dats m 0 c).arrAt w (cfgs 0).N) (Proc.tc.devRef main_arg2)
      : S16x512.Idx → EReal) = m ((c : Thread nD τ).loc main_arg2) :=
  (Pipeline.withArrays_arr spec0 launch0.win.arr_inj c _ _ 2).trans
    (((dats m 0 c).arrAt_in 2 rfl _).trans ((A_eq m c 2).trans (V_main_arg2 m c)))

set_option maxRecDepth 8192 in
set_option maxHeartbeats 4000000 in
/-- The program's result buffer after the lines that follow the region is the reference's result term. -/
theorem tail_eq (c : Dev nD) (hl : Labels m c) :
    (Pipeline.afterTail₀ cfgs (dats m) 0 (V0 m) [hostOps1, hostOps1_1, hostOps1_2, hostOps1_3, hostOps1_4] c main_v26
      : S_.Idx → EReal) = refResult m c := by
  unfold Pipeline.afterTail₀
  simp only [hostOps1, hostOps1_1, hostOps1_2, hostOps1_3, hostOps1_4, List.flatten_cons, List.flatten_nil, List.append_nil,
    List.cons_append, List.nil_append]
  after_results
  rw [region_out m c hl, region_centres m c]
  have hs : (fun i => shapeCast S_ (result m c) shapeCasts_S1x1_S_ i)
      = Cert.ReferenceIdeal.Read.val_main_v9 (F := Ideal) (m ((c : Thread nD τ).loc main_arg0))
          (m ((c : Thread nD τ).loc main_arg1)) (m ((c : Thread nD τ).loc main_arg2)) := by
    funext i
    rw [Cert.ReferenceIdeal.RefSum.sumsq_eq _ _ _ hl i, ← total_eq]
    rfl
  unfold refResult Cert.ReferenceIdeal.Read.val_main_v33 Cert.ReferenceIdeal.Read.val_main_v32
    Cert.ReferenceIdeal.Read.val_main_v11 Cert.ReferenceIdeal.Read.val_main_v10
  refine congrArg₂ (fun (a b : S_.Idx → EReal) => mulf (constant (F := Ideal) S_ .f32 0x3F800000#32)
    (addf (mulf (mulf (constant (F := Ideal) S_ .f32 0x3F000000#32) a) (constant (F := Ideal) S_ .f32 0x37800000#32)) b)) ?_ ?_
  · exact hs
  · rfl

/-- The run, read: every execution ends with the result buffer at the reference's result term of the arguments, and
    the arguments unchanged (the features and the centres are arrays of the region and end as the region found them,
    the label vector is touched by no line). -/
theorem run (hl : ∀ c, Labels m c) :
    θ_run defs (onTc (τ := τ) (main (F := Ideal))) ⟨m, fun _ => 0, ρ⟩ fun r => ∀ c : Dev nD,
      r.2.mem ((c.tc : Thread nD τ).loc main_v26) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v26 (Pipeline.mem_restRefs_of main_v26 (by decide) (by decide))).trans (tail_eq m c (hl c)),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.KernelRun

end
-- ==== Proof.PreLabels.lean ====
/-
  What the precondition says of the labels.

  The precondition is the conjunction of four tests, each a reduction by "and" over a whole array: the features are
  finite, the centres are finite, every label is at least 0, every label is below 16 (the last two compare the label
  words, read as signed integers, with the constants 0 and 16 laid along the labels). A conjunction that is 1 has every
  conjunct 1, and a reduction by "and" that is 1 had a 1 at every entry; so every label word, read signed, lies in
  [0, 16), and a word that is non-negative read signed has the same value read unsigned: it is a class number.
-/
import proofs.«424036_j30167850287416_1_alg».proof.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.Pre_finite_inputs.Labels

open Idealize.ShloMosaic Idealize.ShloMosaic.ValueIdx Cert.Pre_finite_inputs

variable [Facts]

instance : Subsingleton S_.Idx := ⟨fun a b => funext fun d => d.elim0⟩

/-- A 32-bit word that is at least 0 and below 16 read signed is below 16 read unsigned. -/
theorem toNat_lt_of_toInt {x : BitVec 32} (h0 : (0#32 : BitVec 32).toInt ≤ x.toInt) (h1 : x.toInt < (16#32 : BitVec 32).toInt) :
    x.toNat < 16 := by
  have e0 : (0#32 : BitVec 32).toInt = 0 := by decide
  have e1 : (16#32 : BitVec 32).toInt = 16 := by decide
  rw [e0] at h0
  rw [e1] at h1
  have hc := BitVec.toInt_eq_toNat_cond x
  have hx := x.isLt
  split at hc <;> omega

/-- Under the precondition every label word is below 16. -/
theorem lt_of_pre {F : FTy → Type} [FloatOps F] (a0 : FVec F S65536x512 .f32) (a1 : IVec S65536 32)
    (a2 : FVec F S16x512 .f32) (h : fn (F := F) a0 a1 a2 = fun _ => 1#1) (R : Fin 65536) :
    (a1 (ix1 R)).toNat < 16 := by
  have h0 := congrFun h ix0
  dsimp only [fn, fn_part1] at h0
  obtain ⟨h12, h15⟩ := IntOp.andi_eq_one.mp h0
  obtain ⟨-, h11⟩ := IntOp.andi_eq_one.mp h12
  have hge := Host.reduce_andi_all _ _ _ _ _ h11 (ix1 R)
  have hlt := Host.reduce_andi_all _ _ _ _ _ h15 (ix1 R)
  have hge' : IntOp.cmpi .sge (a1 (ix1 R)) (0#32) = 1#1 := by
    have e : broadcastInDim S65536 ![] Facts.bcast_S_S65536 (constantI S_ 32 0#32) (ix1 R) = 0#32 :=
      StableHlo.Predicate.bcast_scalar _ Facts.h_S_ _ _
    rw [← e]; exact hge
  have hlt' : IntOp.cmpi .slt (a1 (ix1 R)) (16#32) = 1#1 := by
    have e : broadcastInDim S65536 ![] Facts.bcast_S_S65536 (constantI S_ 32 16#32) (ix1 R) = 16#32 :=
      StableHlo.Predicate.bcast_scalar _ Facts.h_S_ _ _
    rw [← e]; exact hlt
  exact toNat_lt_of_toInt (IntOp.cmpi_sge.mp hge') (IntOp.cmpi_slt.mp hlt')

end Cert.Pre_finite_inputs.Labels

end
-- ==== Proof.lean ====
/-
  The island loss: a kernel's centre-loss sum against the reference's, over the extended reals.

  Inputs: features f32[65536, 512], labels i32[65536], centres f32[16, 512]. Both programs return

      1 · (½ · S · 2⁻¹⁶ + 10 · C),

  where C depends on the centres alone (the sum, over the pairs of classes above the diagonal, of the cosine of the two
  centre rows plus one, the cosine's denominator the product of the rows' norms plus a small constant) and is computed
  by the same host lines in both programs, and S is the sum over all samples R and features c of
  (features (R, c) − centres (label R, c))².

  The reference reads centres (label R, ·) by a gather: a negative label is wrapped by adding 16 and the start index
  is clamped into the table. The kernel cuts the samples into 16 blocks of 4096 rows; for each block it tests every
  label against the class numbers 0 … 15, reads the tests as the numbers 1 and 0, multiplies the 4096 × 16 tests by
  the table, subtracts from the features, squares and adds, accumulating the 16 block sums in one cell across the
  grid and writing the cell out after the last block. For a label outside [0, 16) the tests are all 0 and the kernel
  subtracts nothing, while the reference subtracts a wrapped or clamped row: the two differ there, and the
  precondition keeps the labels in [0, 16), the range of the table they index. Inside that range exactly one test is
  1, and 0 · x = 0, 1 · x = x for every extended real x, so the product's row is the named centre; the 16 block sums
  regroup into the one sum because addition of extended reals is commutative and associative. No finiteness of the
  features or the centres is used.

  The three programs' runs terminate without a fault and leave their arguments unchanged: for the two kernel programs
  by the generated frames, for the reference by its generated run. The idealization rewrote nothing.
-/
import proofs.«424036_j30167850287416_1_alg».proof.Defs
import proofs.«424036_j30167850287416_1_alg».proof.Proof.Gen.Kernel
import proofs.«424036_j30167850287416_1_alg».proof.Proof.Gen.Kernel.Skeleton
import proofs.«424036_j30167850287416_1_alg».proof.Proof.Gen.Kernel.Launch
import proofs.«424036_j30167850287416_1_alg».proof.Proof.Gen.Kernel.Points
import proofs.«424036_j30167850287416_1_alg».proof.Proof.Gen.Kernel.Frame
import proofs.«424036_j30167850287416_1_alg».proof.Proof.Gen.KernelIdeal
import proofs.«424036_j30167850287416_1_alg».proof.Proof.Gen.KernelIdeal.Skeleton
import proofs.«424036_j30167850287416_1_alg».proof.Proof.Gen.KernelIdeal.Launch
import proofs.«424036_j30167850287416_1_alg».proof.Proof.Gen.KernelIdeal.Points
import proofs.«424036_j30167850287416_1_alg».proof.Proof.Gen.KernelIdeal.Frame
import proofs.«424036_j30167850287416_1_alg».proof.Proof.Gen.ReferenceIdeal
import proofs.«424036_j30167850287416_1_alg».proof.Proof.Gen.ReferenceIdeal.Run
import proofs.«424036_j30167850287416_1_alg».proof.Proof.Gen.ReferenceIdeal.Read
import proofs.«424036_j30167850287416_1_alg».proof.Proof.Gen.Pre_finite_inputs
import proofs.«424036_j30167850287416_1_alg».proof.Proof.KernelRun
import proofs.«424036_j30167850287416_1_alg».proof.Proof.PreLabels
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the reference's result term of the shared arguments: the kernel's run by its region's total
    and the shared closing lines, the reference's by its own run; the precondition gives the labels' range. -/
theorem algebraic : Cert.algebraic_KernelIdeal_ReferenceIdeal := by
  intro m ρ m' ρ' hpre hagree
  have hl : ∀ c, Cert.KernelIdeal.Accum.Labels m c := fun c R =>
    Cert.Pre_finite_inputs.Labels.lt_of_pre _ _ _ (hpre c) R
  refine ⟨fun c => Cert.KernelIdeal.KernelRun.refResult m c, Cert.KernelIdeal.KernelRun.run m ρ hl, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
